-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S8 : Shape := ⟨1, ![8]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S32768x1024 .f32) (main_arg1 : IVec S8 32) (main_arg2 : FVec F S8x1024x4096 .f32) (main_arg3 : FVec F S8x4096x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S8x1024x4096 .f32 := Host.absf main_arg2
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096x1024 .f32 := Host.absf main_arg3
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S32768x1024 : Shape := ⟨2, ![32768, 1024]⟩
abbrev S8 : Shape := ⟨1, ![8]⟩
abbrev S8x1024x4096 : Shape := ⟨3, ![8, 1024, 4096]⟩
abbrev S8x4096x1024 : Shape := ⟨3, ![8, 4096, 1024]⟩
abbrev S1x1024x1024 : Shape := ⟨3, ![1, 1024, 1024]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S8, .i32⟩
  | .hbm, ⟨2, _⟩ => ⟨S8x1024x4096, .f32⟩
  | .hbm, ⟨3, _⟩ => ⟨S8x4096x1024, .f32⟩
  | .hbm, ⟨4, _⟩ => ⟨S8x4096x1024, .f32⟩
  | .hbm, ⟨5, _⟩ => ⟨S8x4096x1024, .bf16⟩
  | .hbm, ⟨6, _⟩ => ⟨S8x1024x4096, .bf16⟩
  | .hbm, ⟨7, _⟩ => ⟨S8x4096x1024, .bf16⟩
  | .hbm, ⟨8, _⟩ => ⟨S8x4096x1024, .f32⟩
  | .hbm, ⟨9, _⟩ => ⟨S32768x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_15 : BitVec 32 := 0#32
  let v21 : BitVec 1 := Scalar.cmpi .ne v20 c0_i32_15
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S32768x1024_S8x4096x1024 : S32768x1024.ShapeCasts S8x4096x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S8x4096x1024_S32768x1024 : S8x4096x1024.ShapeCasts S32768x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .bf16 = 32 ∨ (Rect.block (s := S8x4096x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x4096.size a
  hwx0_1 : ∀ i : grid0.Coords, EltTy.bits .bf16 = 32 ∨ (Rect.block (s := S8x1024x4096) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x4096x1024.size a
  hwx0_2 : ∀ i : grid0.Coords, EltTy.bits .bf16 = 32 ∨ (Rect.block (s := S8x4096x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .f32 = 32 ∨ (Rect.block (s := S8x4096x1024) S1x1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x1024 : Shape := ⟨2, ![32768, 1024]⟩
abbrev S8 : Shape := ⟨1, ![8]⟩
abbrev S8x1024x4096 : Shape := ⟨3, ![8, 1024, 4096]⟩
abbrev S8x4096x1024 : Shape := ⟨3, ![8, 4096, 1024]⟩
abbrev S8x4096x4096 : Shape := ⟨3, ![8, 4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8, .i32⟩
  | .hbm, ⟨2, _⟩ => ⟨S8x1024x4096, .f32⟩
  | .hbm, ⟨3, _⟩ => ⟨S8x4096x1024, .f32⟩
  | .hbm, ⟨4, _⟩ => ⟨S8x4096x1024, .f32⟩
  | .hbm, ⟨5, _⟩ => ⟨S8x4096x4096, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S8x4096x1024, .f32⟩
  | .hbm, ⟨10, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  shapeCasts_S32768x1024_S8x4096x1024 : S32768x1024.ShapeCasts S8x4096x1024
  bcast_S_S8x4096x4096 : S_.BroadcastsInDim S8x4096x4096 (![] : Fin 0 → Fin S8x4096x4096.rank)
  shapeCasts_S8x4096x1024_S32768x1024 : S8x4096x1024.ShapeCasts S32768x1024
  dot_S8x4096x1024_S8x1024x4096_S8x4096x4096_2_1_1_2_0_0_wf : DotDims.WF S8x4096x1024 S8x1024x4096 S8x4096x4096 [2] [1] [1] [2] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.LibBlockedSum.lean ====
/- A sum over a range of naturals cut into consecutive blocks of equal length: summing block by block, each block
   over its places, is summing over the whole range. Stated for a function of the naturals with values in a
   commutative additive monoid, so that the blocks' terms are named by arithmetic on positions alone. -/
import Mathlib.Algebra.BigOperators.Fin
import Mathlib.Algebra.BigOperators.Intervals

open scoped BigOperators

namespace Cert.BlockedSum

variable {M : Type*} [AddCommMonoid M]

/-- Over ranges: the sum over `nb` blocks of the sum over the `bs` places of block `s`, which are the positions
    `bs * s + r`, is the sum over the first `nb * bs` positions. By induction on the number of blocks: the last
    block is the tail of the longer range. -/
theorem sum_range_blocks (f : ℕ → M) (bs : ℕ) : ∀ nb : ℕ,
    ∑ s ∈ Finset.range nb, ∑ r ∈ Finset.range bs, f (bs * s + r) = ∑ k ∈ Finset.range (nb * bs), f k
  | 0 => by simp
  | nb + 1 => by
    rw [Finset.sum_range_succ, sum_range_blocks f bs nb, Nat.succ_mul, Finset.sum_range_add, Nat.mul_comm bs nb]

/-- The same with the places of a block and the positions of the whole range as bounded naturals. -/
theorem sum_blocks_fin (f : ℕ → M) (nb bs : ℕ) :
    ∑ s ∈ Finset.range nb, ∑ r : Fin bs, f (bs * s + r.val) = ∑ k : Fin (nb * bs), f k.val := by
  rw [Fin.sum_univ_eq_sum_range f (nb * bs), ← sum_range_blocks f bs nb]
  exact Finset.sum_congr rfl fun s _ => Fin.sum_univ_eq_sum_range (fun r => f (bs * s + r)) bs

end Cert.BlockedSum
-- ==== Proof.Spec.lean ====
/- The per-expert feed-forward map over the extended reals, as one function of the token array and the two weight
   arrays: token c of expert e is sent to the vector whose coordinate d is
     Σ_f max(Σ_j x(e, c, j) · w1(e, j, f), 0) · w2(e, f, d),
   the hidden index f running over 4096 places. The sum over f is also written block by block, four blocks of 1024
   places: the partial sums over the first n blocks are what an accumulation over the hidden blocks passes through,
   and the fourth partial sum is the whole. -/
import Idealize.ShloMosaic.Lib.ValueIdx
import proofs.«181821_j5566277615660_1_alg».proof.Proof.LibBlockedSum

noncomputable section

open scoped BigOperators

namespace Cert.ExpertMlp

open Idealize.ShloMosaic Idealize.ShloMosaic.ValueIdx

/-- Tokens grouped by expert: (expert, token, model coordinate); also the shape of the down projection's weights
    (expert, hidden place, model coordinate). -/
abbrev Tok : Shape := ⟨3, ![8, 4096, 1024]⟩
/-- The up projection's weights: (expert, model coordinate, hidden place). -/
abbrev Up : Shape := ⟨3, ![8, 1024, 4096]⟩

variable (x : Tok.Idx → EReal) (w1 : Up.Idx → EReal) (w2 : Tok.Idx → EReal)

/-- The hidden activation of token (e, c) at hidden place f: the positive part of the first contraction. -/
def hidden (e : Fin 8) (c : Fin 4096) (f : Fin 4096) : EReal :=
  max (∑ j : Fin 1024, x (ix3 e c j) * w1 (ix3 e j f)) 0

/-- The second contraction's term at hidden place f, with f a natural number: zero past the hidden width. -/
def term (e : Fin 8) (c : Fin 4096) (d : Fin 1024) (f : ℕ) : EReal :=
  if h : f < 4096 then hidden x w1 e c ⟨f, h⟩ * w2 (ix3 e ⟨f, h⟩ d) else 0

theorem term_of_lt (e : Fin 8) (c : Fin 4096) (d : Fin 1024) (f : ℕ) (h : f < 4096) :
    term x w1 w2 e c d f = hidden x w1 e c ⟨f, h⟩ * w2 (ix3 e ⟨f, h⟩ d) := dif_pos h

/-- The feed-forward map. -/
def mlp : Tok.Idx → EReal :=
  fun i => ∑ f : Fin 4096, hidden x w1 (i 0) (i 1) f * w2 (ix3 (i 0) f (i 2))

theorem mlp_ix3 (e : Fin 8) (c : Fin 4096) (d : Fin 1024) :
    mlp x w1 w2 (ix3 e c d) = ∑ f : Fin 4096, hidden x w1 e c f * w2 (ix3 e f d) := rfl

/-- The second contraction summed over the first n blocks of 1024 hidden places. -/
def partialSum (e : Fin 8) (c : Fin 4096) (d : Fin 1024) (n : ℕ) : EReal :=
  ∑ s ∈ Finset.range n, ∑ r : Fin 1024, term x w1 w2 e c d (1024 * s + r.val)

theorem partialSum_zero (e : Fin 8) (c : Fin 4096) (d : Fin 1024) : partialSum x w1 w2 e c d 0 = 0 :=
  Finset.sum_range_zero _

theorem partialSum_succ (e : Fin 8) (c : Fin 4096) (d : Fin 1024) (n : ℕ) :
    partialSum x w1 w2 e c d (n + 1)
      = partialSum x w1 w2 e c d n + ∑ r : Fin 1024, term x w1 w2 e c d (1024 * n + r.val) :=
  Finset.sum_range_succ _ _

/-- Four blocks of 1024 places are the 4096 hidden places. -/
theorem partialSum_four (e : Fin 8) (c : Fin 4096) (d : Fin 1024) :
    partialSum x w1 w2 e c d 4 = mlp x w1 w2 (ix3 e c d) := by
  unfold partialSum
  rw [Cert.BlockedSum.sum_blocks_fin (term x w1 w2 e c d) 4 1024, mlp_ix3]
  show ∑ k : Fin 4096, term x w1 w2 e c d k.val = _
  exact Finset.sum_congr rfl fun k _ => term_of_lt x w1 w2 e c d k.val k.isLt

end Cert.ExpertMlp

end
-- ==== Proof.RefSide.lean ====
/- The reference program at the extended reals: its batched products and positive part, read entry by entry, are the
   per-expert feed-forward map of the reshaped tokens and the two weight arrays. The first product contracts the
   model coordinate, the positive part is the maximum with the zero constant, the second product contracts the
   hidden place; the batch axis is the expert on both. -/
import proofs.«181821_j5566277615660_1_alg».proof.Defs
import proofs.«181821_j5566277615660_1_alg».proof.Proof.Gen.ReferenceIdeal.Run
import proofs.«181821_j5566277615660_1_alg».proof.Proof.Gen.ReferenceIdeal.Read
import proofs.«181821_j5566277615660_1_alg».proof.Proof.Spec

noncomputable section

open scoped BigOperators

namespace Cert.ReferenceIdeal.RefValue

open Cert.ReferenceIdeal Cert.ReferenceIdeal.Read Idealize.ShloMosaic Idealize.ShloMosaic.ValueIdx Cert.ExpertMlp

/-- The second product at entry (e, c, d) reads its left operand along the hidden place, -/
theorem left_down (e : Fin 8) (c : Fin 4096) (d : Fin 1024) (f : Fin 4096) :
    lidx_main_v3 (ix3 e c d) f = ix3 e c f :=
  funext fun a => Fin.ext (by match a with | ⟨0, _⟩ => rfl | ⟨1, _⟩ => rfl | ⟨2, _⟩ => rfl)
/-- and its right operand down the hidden place. -/
theorem right_down (e : Fin 8) (c : Fin 4096) (d : Fin 1024) (f : Fin 4096) :
    ridx_main_v3 (ix3 e c d) f = ix3 e f d :=
  funext fun a => Fin.ext (by match a with | ⟨0, _⟩ => rfl | ⟨1, _⟩ => rfl | ⟨2, _⟩ => rfl)
/-- The first product at entry (e, c, f) reads the token's row along the model coordinate, -/
theorem left_up (e : Fin 8) (c : Fin 4096) (f : Fin 4096) (j : Fin 1024) :
    lidx_main_v1 (ix3 e c f) j = ix3 e c j :=
  funext fun a => Fin.ext (by match a with | ⟨0, _⟩ => rfl | ⟨1, _⟩ => rfl | ⟨2, _⟩ => rfl)
/-- and the up projection's column down the model coordinate. -/
theorem right_up (e : Fin 8) (c : Fin 4096) (f : Fin 4096) (j : Fin 1024) :
    ridx_main_v1 (ix3 e c f) j = ix3 e j f :=
  funext fun a => Fin.ext (by match a with | ⟨0, _⟩ => rfl | ⟨1, _⟩ => rfl | ⟨2, _⟩ => rfl)

/-- The constant the positive part compares with is zero everywhere. -/
theorem floor_zero (i : S8x4096x4096.Idx) : val_main_call0_v0 (F := Ideal) i = 0 := by
  rw [val_main_call0_v0_apply, val_main_call0_cst_apply]
  exact Ideal.ofBits_zero_f32

/-- The reference's value before its last reshape is the feed-forward map of the reshaped tokens. -/
theorem down_eq (x0 : (⟨S32768x1024, .f32⟩ : BufTy).Contents (Elt Ideal)) (x2 : (⟨S8x1024x4096, .f32⟩ : BufTy).Contents (Elt Ideal))
    (x3 : (⟨S8x4096x1024, .f32⟩ : BufTy).Contents (Elt Ideal)) :
    val_main_v3 (F := Ideal) x0 x2 x3 = mlp (val_main_v0 (F := Ideal) x0) x2 x3 := by
  funext i
  obtain ⟨e, c, d, rfl⟩ : ∃ (e : Fin 8) (c : Fin 4096) (d : Fin 1024), i = ix3 e c d := ⟨i 0, i 1, i 2, eq_ix3 i⟩
  rw [val_main_v3_apply, mlp_ix3]
  refine Finset.sum_congr rfl fun f _ => ?_
  rw [left_down, right_down, val_main_v2_apply, val_main_v1_apply, floor_zero]
  unfold ExpertMlp.hidden
  simp only [left_up, right_up]
  rfl

end Cert.ReferenceIdeal.RefValue

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.Payload.lean ====
/- The body's stored values at the extended reals, read at one entry. The body holds a row block of tokens x (1024 by
   1024: token by model coordinate), a block of the up projection u (model coordinate by hidden place) and a block of
   the down projection v (hidden place by model coordinate), and adds to the accumulator the product of the positive
   part of x·u with v: at entry (p, q) that is acc(p, q) + Σ_f max(Σ_j x(p, j) · u(j, f), 0) · v(f, q). The first
   hidden block starts from the zero block, and the last copies the accumulator out. -/
import proofs.«181821_j5566277615660_1_alg».proof.Proof.Gen.KernelIdeal.Skeleton
import proofs.«181821_j5566277615660_1_alg».proof.Proof.LibDotRead
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The reset value is the zero block. -/
theorem reset_apply (i : S1024x1024.Idx) : k0_pay1 (F := Ideal) i = 0 := by
  unfold k0_pay1
  refine (congrFun (shapeCast_self _ _) i).trans ?_
  exact Ideal.ofBits_zero_f32

/-- One hidden unit of a row block: the positive part of the row of x against the column of u. -/
theorem hidden_apply (x u : Vec Ideal S1x1024x1024 .bf16) (p f : Fin 1024) :
    (truncf .bf16 (maximumf
        (matmul dot_S1024x1024_S1024x1024_S1024x1024_1_0_0_1_n_n none
          (shapeCast S1024x1024 x shapeCasts_S1x1024x1024_S1024x1024 : FVec Ideal S1024x1024 .bf16)
          (shapeCast S1024x1024 u shapeCasts_S1x1024x1024_S1024x1024 : FVec Ideal S1024x1024 .bf16)
          (constant (F := Ideal) S1024x1024 .f32 0x00000000#32))
        (broadcast S1024x1024 (Scalar.ofBits (F := Ideal) .f32 0x00000000#32))) bitsLt_bf16_f32 : FVec Ideal S1024x1024 .bf16) (ix2 p f)
      = max (∑ j : Fin 1024, x (ix3 (0 : Fin 1) p j) * u (ix3 (0 : Fin 1) j f)) 0 := by
  show max (matmul dot_S1024x1024_S1024x1024_S1024x1024_1_0_0_1_n_n none _ _ _ (ix2 p f)) (Ideal.ofBits .f32 0x00000000#32) = _
  rw [Ideal.ofBits_zero_f32]
  refine congrArg (max · 0) ?_
  refine (Ideal.matmul_constant_zero_apply _ none _ _ (ix2 p f)).trans ?_
  refine (Cert.DotRead.sum_contr_plain (m := 1024) (k := 1024) (n := 1024) dot_S1024x1024_S1024x1024_S1024x1024_1_0_0_1_n_n_wf _ _ p f).trans ?_
  refine Finset.sum_congr rfl fun j _ => ?_
  rw [shapeCast_1ab_ab_apply, shapeCast_1ab_ab_apply]

/-- The accumulating store at entry (p, q). -/
theorem step_apply (x u v : Vec Ideal S1x1024x1024 .bf16) (acc : Vec Ideal S1024x1024 .f32) (p q : Fin 1024) :
    k0_pay2 (F := Ideal) x u v acc (ix2 p q)
      = acc (ix2 p q) + ∑ f : Fin 1024, max (∑ j : Fin 1024, x (ix3 (0 : Fin 1) p j) * u (ix3 (0 : Fin 1) j f)) 0 * v (ix3 (0 : Fin 1) f q) := by
  unfold k0_pay2
  refine (congrFun (shapeCast_self _ _) (ix2 p q)).trans ?_
  refine congrArg (acc (ix2 p q) + ·) ?_
  refine (Ideal.matmul_constant_zero_apply _ none _ _ (ix2 p q)).trans ?_
  refine (Cert.DotRead.sum_contr_plain (m := 1024) (k := 1024) (n := 1024) dot_S1024x1024_S1024x1024_S1024x1024_1_0_0_1_n_n_wf _ _ p q).trans ?_
  refine Finset.sum_congr rfl fun f _ => ?_
  refine congrArg₂ (· * ·) (hidden_apply x u p f) ?_
  exact shapeCast_1ab_ab_apply v _ f q

/-- The copy out reads the accumulator entry for entry. -/
theorem copy_apply (acc : Vec Ideal S1024x1024 .f32) (z : Fin 1) (p q : Fin 1024) :
    k0_pay3 (F := Ideal) acc (ix3 z p q) = acc (ix2 p q) := by
  unfold k0_pay3
  exact shapeCast_ab_1ab_apply acc _ z p q

end Cert.KernelIdeal.Payload

end
-- ==== Proof.Blocks.lean ====
/- The blocks the body is given at a grid position, as entries of the arrays the kernel call receives. Position n of
   the 8 x 4 x 4 grid is expert n / 16, token row block n / 4 mod 4 and hidden block n mod 4: the token block is rows
   1024 · (n / 4 mod 4) + p of expert n / 16, the up projection's block is its columns 1024 · (n mod 4) + f, the down
   projection's block its rows 1024 · (n mod 4) + f. With these, one accumulating step adds the terms of hidden block
   n mod 4 of the feed-forward sum for that token row. -/
import proofs.«181821_j5566277615660_1_alg».proof.Proof.Gen.KernelIdeal.Frame
import proofs.«181821_j5566277615660_1_alg».proof.Proof.Payload
import proofs.«181821_j5566277615660_1_alg».proof.Proof.Spec
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx Idealize.SL.Sem
open Cert.ExpertMlp

/-- The expert of grid position n, -/
abbrev expertAt (n : ℕ) : Fin 8 := ⟨n / 16 % 8, Nat.mod_lt _ (by decide)⟩
/-- the token row of its block's row p, -/
abbrev rowAt (n : ℕ) (p : Fin 1024) : Fin 4096 := ⟨1024 * (n / 4 % 4) + p.val, by have := p.isLt; omega⟩
/-- and the hidden place of its hidden block's place f. -/
abbrev hidAt (n : ℕ) (f : Fin 1024) : Fin 4096 := ⟨1024 * (n % 4) + f.val, by have := f.isLt; omega⟩

variable {F : FTy → Type} [FloatOps F]
variable (m : (ℓ : Loc nD τ sig) → Buf (Elt F) ℓ)

/-- The arrays the kernel call receives: the tokens by expert and the two projections. -/
abbrev tokens (c : Dev nD) : Vec F S8x4096x1024 .bf16 := V m c main_v1
abbrev up (c : Dev nD) : Vec F S8x1024x4096 .bf16 := V m c main_v2
abbrev down (c : Dev nD) : Vec F S8x4096x1024 .bf16 := V m c main_v3
/-- Their blocks at a grid position. -/
abbrev xblk (c : Dev nD) (t : Fin cfg0.N) : Vec F S1x1024x1024 .bf16 := iblk m c 0 t
abbrev ublk (c : Dev nD) (t : Fin cfg0.N) : Vec F S1x1024x1024 .bf16 := iblk m c 1 t
abbrev vblk (c : Dev nD) (t : Fin cfg0.N) : Vec F S1x1024x1024 .bf16 := iblk m c 2 t

/-- The block indices of the four operands at every grid position. -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = 0 ∧ win0_1.index t (2 : Fin 3) = t.val % 4
    ∧ win0_2.index t (0 : Fin 3) = t.val / 16 ∧ win0_2.index t (1 : Fin 3) = t.val % 4 ∧ win0_2.index t (2 : Fin 3) = 0
    ∧ win0_3.index t (0 : Fin 3) = t.val / 16 ∧ win0_3.index t (1 : Fin 3) = t.val / 4 % 4 ∧ win0_3.index t (2 : Fin 3) = 0 :=
  (by decide +kernel : ∀ t : Fin grid0.N, _)

theorem lt_128 (t : Fin cfg0.N) : t.val < 128 := lt_of_lt_of_eq t.isLt (show cfg0.N = 128 from N_0)

theorem xblk_apply (c : Dev nD) (t : Fin cfg0.N) (z : Fin 1) (p j : Fin 1024) :
    xblk m c t (ix3 z p j) = tokens m c (ix3 (expertAt t.val) (rowAt t.val p) j) := by
  obtain ⟨e0, e1, e2, -⟩ := idx_facts t
  have hN := lt_128 t
  show V m c main_v1 (((cfg0.win 0).blk t).view.emb (ix3 z p j)) = V m c main_v1 _
  refine congrArg (V m c main_v1) ?_
  funext a; apply Fin.ext
  match a with
  | ⟨0, _⟩ => show win0_0.index t (0 : Fin 3) * 1 + 1 * z.val = t.val / 16 % 8; have := z.isLt; omega
  | ⟨1, _⟩ => show win0_0.index t (1 : Fin 3) * 1024 + 1 * p.val = 1024 * (t.val / 4 % 4) + p.val; omega
  | ⟨2, _⟩ => show win0_0.index t (2 : Fin 3) * 1024 + 1 * j.val = j.val; omega

theorem ublk_apply (c : Dev nD) (t : Fin cfg0.N) (z : Fin 1) (j f : Fin 1024) :
    ublk m c t (ix3 z j f) = up m c (ix3 (expertAt t.val) j (hidAt t.val f)) := by
  obtain ⟨-, -, -, e0, e1, e2, -⟩ := idx_facts t
  have hN := lt_128 t
  show V m c main_v2 (((cfg0.win 1).blk t).view.emb (ix3 z j f)) = V m c main_v2 _
  refine congrArg (V m c main_v2) ?_
  funext a; apply Fin.ext
  match a with
  | ⟨0, _⟩ => show win0_1.index t (0 : Fin 3) * 1 + 1 * z.val = t.val / 16 % 8; have := z.isLt; omega
  | ⟨1, _⟩ => show win0_1.index t (1 : Fin 3) * 1024 + 1 * j.val = j.val; omega
  | ⟨2, _⟩ => show win0_1.index t (2 : Fin 3) * 1024 + 1 * f.val = 1024 * (t.val % 4) + f.val; omega

theorem vblk_apply (c : Dev nD) (t : Fin cfg0.N) (z : Fin 1) (f q : Fin 1024) :
    vblk m c t (ix3 z f q) = down m c (ix3 (expertAt t.val) (hidAt t.val f) q) := by
  obtain ⟨-, -, -, -, -, -, e0, e1, e2, -⟩ := idx_facts t
  have hN := lt_128 t
  show V m c main_v3 (((cfg0.win 2).blk t).view.emb (ix3 z f q)) = V m c main_v3 _
  refine congrArg (V m c main_v3) ?_
  funext a; apply Fin.ext
  match a with
  | ⟨0, _⟩ => show win0_2.index t (0 : Fin 3) * 1 + 1 * z.val = t.val / 16 % 8; have := z.isLt; omega
  | ⟨1, _⟩ => show win0_2.index t (1 : Fin 3) * 1024 + 1 * f.val = 1024 * (t.val % 4) + f.val; omega
  | ⟨2, _⟩ => show win0_2.index t (2 : Fin 3) * 1024 + 1 * q.val = q.val; omega

end Cert.KernelIdeal.Blocks

/-! ## One accumulating step, at the extended reals -/

namespace Cert.KernelIdeal.Blocks

open Cert.KernelIdeal Cert.KernelIdeal.Gen Idealize.ShloMosaic Idealize.ShloMosaic.TcCoe Idealize.ShloMosaic.ValueIdx Idealize.SL.Sem
open Cert.ExpertMlp

variable (m : (ℓ : Loc nD τ sig) → Buf (Elt Ideal) ℓ)

/-- The step at position t adds, at entry (p, q), the terms of hidden block t mod 4 for token row (t, p). -/
theorem step_block (c : Dev nD) (t : Fin cfg0.N) (acc : Vec Ideal S1024x1024 .f32) (p q : Fin 1024) :
    k0_pay2 (F := Ideal) (xblk m c t) (ublk m c t) (vblk m c t) acc (ix2 p q)
      = acc (ix2 p q) + ∑ r : Fin 1024, term (tokens m c) (up m c) (down m c) (expertAt t.val) (rowAt t.val p) q (1024 * (t.val % 4) + r.val) := by
  refine (Payload.step_apply (xblk m c t) (ublk m c t) (vblk m c t) acc p q).trans ?_
  refine congrArg (acc (ix2 p q) + ·) (Finset.sum_congr rfl fun r _ => ?_)
  rw [term_of_lt (tokens m c) (up m c) (down m c) (expertAt t.val) (rowAt t.val p) q (1024 * (t.val % 4) + r.val) (by have := r.isLt; omega)]
  unfold ExpertMlp.hidden
  rw [vblk_apply m c t 0 r q]
  simp only [xblk_apply m c t 0 p, ublk_apply m c t 0]

end Cert.KernelIdeal.Blocks

end
-- ==== Proof.Pieces.lean ====
/- What the body leaves behind at a grid point, as values of the blocks it was given. At the first hidden block the
   accumulator is reset to the zero block and then updated; at the later hidden blocks it is updated from what the
   point before left; at the last hidden block the updated accumulator is also copied to the output block. Each is
   the body's one stored value (the last store covers the whole buffer), with the loads reading the whole buffers
   they were given. -/
import proofs.«181821_j5566277615660_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First hidden block: the accumulator ends at the update of the zero block. -/
theorem scratch_first (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : cond0_0 i) (hc1 : ¬cond0_1 i)
    (x0 : Vec F S1x1024x1024 .bf16) (x1 : Vec F S1x1024x1024 .bf16) (x2 : Vec F S1x1024x1024 .bf16) :
    sout0_A_0 c i arg3 harg3 arg4 harg4 arg5 harg5 arg6 harg6 arg7 harg7 hc0 hc1 x0 x1 x2 = k0_pay2 x0 x1 x2 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, harg3.read_unread, harg4.read_unread, harg5.read_unread, harg7.read_unread,
    View.ld_unit_zero (S := S1x1024x1024) hz3, View.ld_unit_zero (S := S1024x1024) hz2]

/-- A middle hidden block: the accumulator ends at the update of what it held. -/
theorem scratch_middle (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : ¬cond0_1 i)
    (x0 : Vec F S1x1024x1024 .bf16) (x1 : Vec F S1x1024x1024 .bf16) (x2 : Vec F S1x1024x1024 .bf16) (xs0 : Vec F S1024x1024 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg3.read_unread, harg4.read_unread, harg5.read_unread, harg7.read_unread,
    View.ld_unit_zero (S := S1x1024x1024) hz3, View.ld_unit_zero (S := S1024x1024) hz2]

/-- The last hidden block: the accumulator likewise, -/
theorem scratch_last (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .bf16) (x1 : Vec F S1x1024x1024 .bf16) (x2 : Vec F S1x1024x1024 .bf16) (xs0 : Vec F S1024x1024 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg7.read_unread,
    View.ld_unit_zero (S := S1x1024x1024) hz3, View.ld_unit_zero (S := S1024x1024) hz2]

/-- and the output block is the copy of the updated accumulator. -/
theorem out_last (c : Dev nD) (i : grid0.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .bf16) (x1 : Vec F S1x1024x1024 .bf16) (x2 : Vec F S1x1024x1024 .bf16) (xs0 : Vec F S1024x1024 .f32) :
    out0_C_3 c i arg3 harg3 arg4 harg4 arg5 harg5 arg6 harg6 arg7 harg7 hc0 hc1 x0 x1 x2 xs0 = k0_pay3 (k0_pay2 x0 x1 x2 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz3]
  simp only [View.readAt_eq_ld, harg3.read_unread, harg4.read_unread, harg5.read_unread, harg7.read_unread,
    View.readCov_unit_zero (S := S1024x1024) _ hz2,
    View.ld_unit_zero (S := S1x1024x1024) hz3, View.ld_unit_zero (S := S1024x1024) hz2]

end Cert.KernelIdeal.Pieces

end
-- ==== Proof.Acc.lean ====
/- The accumulator across the grid, and the array the kernel call writes. After position n the accumulator holds, at
   entry (p, q), the feed-forward sum of token row (n, p) at coordinate q over the hidden blocks 0, …, n mod 4: the
   first hidden block starts the sum from zero, each later one adds its block to what the position before left (the
   expert and the token row do not change inside a run of four positions). At the last hidden block the accumulator
   is the whole sum, and it is copied to the output block, which the call writes back to rows 1024 · (n / 4 mod 4) + p
   of expert n / 16: these blocks tile the result array, so it ends holding the feed-forward map of the call's
   operands. -/
import proofs.«181821_j5566277615660_1_alg».proof.Proof.Blocks
import proofs.«181821_j5566277615660_1_alg».proof.Proof.Pieces

set_option maxRecDepth 16384

noncomputable section

open scoped BigOperators

namespace Cert.KernelIdeal.Acc

open Cert.KernelIdeal Cert.KernelIdeal.Gen Idealize.ShloMosaic Idealize.ShloMosaic.TcCoe Idealize.ShloMosaic.ValueIdx Idealize.SL.Sem
open Idealize.ShloMosaic.Pipeline (Dat)
open Cert.ExpertMlp Cert.KernelIdeal.Blocks

variable (m : (ℓ : Loc nD τ sig) → Buf (Elt Ideal) ℓ)

/-- The accumulator after position n is the partial feed-forward sum over the hidden blocks up to n mod 4. -/
theorem acc_eq (c : Dev nD) (n : ℕ) : ∀ (hn : n < cfg0.N) (p q : Fin 1024),
    (outsAt0 m c n hn).2 (ix2 p q)
      = partialSum (tokens m c) (up m c) (down m c) (expertAt n) (rowAt n p) q (n % 4 + 1) := by
  induction n using Nat.strong_induction_on with
  | _ n ih =>
    intro hn p q
    have hN : n < 128 := lt_of_lt_of_eq hn (show cfg0.N = 128 from N_0)
    by_cases h0 : n % 4 = 0
    · have h1 : ¬n % 4 = 3 := by omega
      rw [outsAt0_A m c (⟨n, hn⟩ : Fin cfg0.N) h0 h1]
      dsimp only
      refine (congrFun (Pieces.scratch_first (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _)
        ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))) (ix2 p q)).trans ?_
      refine (step_block m c (⟨n, hn⟩ : Fin cfg0.N) (k0_pay1 (F := Ideal)) p q).trans ?_
      show k0_pay1 (F := Ideal) (ix2 p q) + ∑ r : Fin 1024, term (tokens m c) (up m c) (down m c) (expertAt n) (rowAt n p) q (1024 * (n % 4) + r.val) = _
      rw [partialSum_succ, Payload.reset_apply, h0, partialSum_zero]
    · have IH := ih (n - 1) (by omega) (Nat.lt_of_le_of_lt (Nat.sub_le _ _) hn) p q
      have e1 : expertAt (n - 1) = expertAt n := Fin.ext (by show (n - 1) / 16 % 8 = n / 16 % 8; omega)
      have e2 : rowAt (n - 1) p = rowAt n p := Fin.ext (by show 1024 * ((n - 1) / 4 % 4) + p.val = 1024 * (n / 4 % 4) + p.val; omega)
      have e3 : (n - 1) % 4 + 1 = n % 4 := by omega
      rw [e1, e2, e3] at IH
      by_cases h1 : n % 4 = 3
      · rw [outsAt0_C m c (⟨n, hn⟩ : Fin cfg0.N) h0 h1]
        dsimp only
        refine (congrFun (Pieces.scratch_last (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _)
          (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N))
          (outsAt0 m c (n - 1) (Nat.lt_of_le_of_lt (Nat.sub_le _ _) hn)).2) (ix2 p q)).trans ?_
        refine (step_block m c (⟨n, hn⟩ : Fin cfg0.N) (outsAt0 m c (n - 1) (Nat.lt_of_le_of_lt (Nat.sub_le _ _) hn)).2 p q).trans ?_
        show (outsAt0 m c (n - 1) _).2 (ix2 p q) + ∑ r : Fin 1024, term (tokens m c) (up m c) (down m c) (expertAt n) (rowAt n p) q (1024 * (n % 4) + r.val) = _
        rw [IH, partialSum_succ]
      · rw [outsAt0_B m c (⟨n, hn⟩ : Fin cfg0.N) h0 h1]
        dsimp only
        refine (congrFun (Pieces.scratch_middle (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _)
          (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))
          (outsAt0 m c (n - 1) (Nat.lt_of_le_of_lt (Nat.sub_le _ _) hn)).2) (ix2 p q)).trans ?_
        refine (step_block m c (⟨n, hn⟩ : Fin cfg0.N) (outsAt0 m c (n - 1) (Nat.lt_of_le_of_lt (Nat.sub_le _ _) hn)).2 p q).trans ?_
        show (outsAt0 m c (n - 1) _).2 (ix2 p q) + ∑ r : Fin 1024, term (tokens m c) (up m c) (down m c) (expertAt n) (rowAt n p) q (1024 * (n % 4) + r.val) = _
        rw [IH, partialSum_succ]

/-- The array the kernel call writes: the feed-forward map of its operands. -/
abbrev result (c : Dev nD) : Buf (Elt Ideal) ((c : Thread nD τ).loc main_v4) := mlp (tokens m c) (up m c) (down m c)

/-- At a last hidden block the output block, entry (z, p, q), is the whole sum for token row (t, p). -/
theorem out_apply (c : Dev nD) (t : Fin cfg0.N) (h3 : t.val % 4 = 3) (z : Fin 1) (p q : Fin 1024) :
    (outsAt0 m c t.val t.isLt).1 (ix3 z p q) = result m c (ix3 (expertAt t.val) (rowAt t.val p) q) := by
  have h0 : ¬t.val % 4 = 0 := by omega
  have hpos : 0 < t.val := by omega
  have IH := acc_eq m c (t.val - 1) (Nat.lt_of_le_of_lt (Nat.sub_le _ _) t.isLt) p q
  have e1 : expertAt (t.val - 1) = expertAt t.val := Fin.ext (by show (t.val - 1) / 16 % 8 = t.val / 16 % 8; omega)
  have e2 : rowAt (t.val - 1) p = rowAt t.val p := Fin.ext (by show 1024 * ((t.val - 1) / 4 % 4) + p.val = 1024 * (t.val / 4 % 4) + p.val; omega)
  have e3 : (t.val - 1) % 4 + 1 = t.val % 4 := by omega
  rw [e1, e2, e3] at IH
  rw [outsAt0_C m c t h0 h3]
  dsimp only
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h3) (iblk m c 0 t) (iblk m c 1 t) (iblk m c 2 t)
    (outsAt0 m c (t.val - 1) (Nat.lt_of_le_of_lt (Nat.sub_le _ _) t.isLt)).2) (ix3 z p q)).trans ?_
  refine (Payload.copy_apply _ z p q).trans ?_
  refine (step_block m c t (outsAt0 m c (t.val - 1) (Nat.lt_of_le_of_lt (Nat.sub_le _ _) t.isLt)).2 p q).trans ?_
  rw [IH, ← partialSum_succ, h3]
  exact partialSum_four _ _ _ _ _ _

end Cert.KernelIdeal.Acc

end
-- ==== Proof.Final.lean ====
/- The kernel program's run at the extended reals, read: the kernel call's result array ends at the feed-forward map of
   the call's operands (its output blocks, written back at the last hidden block of each token row block, tile the
   array), the reshape after the call flattens the expert axis, and the operands are the reshaped tokens and the two
   weight arrays themselves (a change of float format is the identity on the extended reals). -/
import proofs.«181821_j5566277615660_1_alg».proof.Proof.Acc
import Idealize.ShloMosaic.Lib.StableHlo.Run

set_option maxRecDepth 16384

noncomputable section

open scoped BigOperators

namespace Cert.KernelIdeal.Final

open Cert.KernelIdeal Cert.KernelIdeal.Gen Idealize.ShloMosaic Idealize.ShloMosaic.TcCoe Idealize.ShloMosaic.ValueIdx Idealize.SL.Sem
open Idealize.ShloMosaic.Pipeline (Dat)
open Cert.ExpertMlp Cert.KernelIdeal.Blocks Cert.KernelIdeal.Acc

variable (m : (ℓ : Loc nD τ sig) → Buf (Elt Ideal) ℓ) (ρ : Dev nD → PrngReg)

/-- What a write-back writes is its block of the feed-forward map. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN := lt_128 t
  obtain ⟨-, -, -, -, -, -, -, -, -, e0, e1, e2⟩ := idx_facts t
  show (cfg0.win 3).cut (grid0.coords t) ((dats m 0 c).after 3 t) = _
  rw [after0_3]
  have key : ∀ j : S1x1024x1024.Idx, (outsAt0 m c t.val t.isLt).1 j = result m c (((cfg0.win 3).blk t).view.emb j) := by
    intro j
    obtain ⟨z, p, q, rfl⟩ : ∃ (z : Fin 1) (p q : Fin 1024), j = ix3 z p q := ⟨j 0, j 1, j 2, eq_ix3 j⟩
    rw [out_apply m c t h3 z p q]
    refine congrArg (result m c) ?_
    funext a; apply Fin.ext
    match a with
    | ⟨0, _⟩ => show t.val / 16 % 8 = win0_3.index t (0 : Fin 3) * 1 + 1 * z.val; have := z.isLt; omega
    | ⟨1, _⟩ => show 1024 * (t.val / 4 % 4) + p.val = win0_3.index t (1 : Fin 3) * 1024 + 1 * p.val; omega
    | ⟨2, _⟩ => show q.val = win0_3.index t (2 : Fin 3) * 1024 + 1 * q.val; omega
  funext j
  exact key j

/-- An index of the result array is in position t's block iff each coordinate is in the block's range. -/
theorem mem_blk (t : Fin cfg0.N) (i : S8x4096x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v4).slice (win0_3.rect t)).set ↔ _
  rw [View.set_slice_whole, Rect.mem_set_unit]
  exact Iff.rfl

/-- Every index is in the block written back at the last hidden block of its expert and token row block. -/
theorem cover (i : S8x4096x1024.Idx) : ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 1024 := (i 2).isLt
  have hlt : 16 * (i 0).val + 4 * ((i 1).val / 1024) + 3 < cfg0.N := by rw [show cfg0.N = 128 from N_0]; omega
  refine ⟨⟨16 * (i 0).val + 4 * ((i 1).val / 1024) + 3, hlt⟩, (flush0_3 _).mpr (by show (16 * (i 0).val + 4 * ((i 1).val / 1024) + 3) % 4 = 3; omega), ?_⟩
  obtain ⟨-, -, -, -, -, -, -, -, -, e0, e1, e2⟩ := idx_facts ⟨16 * (i 0).val + 4 * ((i 1).val / 1024) + 3, hlt⟩
  rw [mem_blk]
  intro a
  match a with
  | ⟨0, _⟩ => show win0_3.index _ (0 : Fin 3) * 1 ≤ (i 0).val ∧ (i 0).val < win0_3.index _ (0 : Fin 3) * 1 + 1; rw [e0]; dsimp only; omega
  | ⟨1, _⟩ => show win0_3.index _ (1 : Fin 3) * 1024 ≤ (i 1).val ∧ (i 1).val < win0_3.index _ (1 : Fin 3) * 1024 + 1024; rw [e1]; dsimp only; omega
  | ⟨2, _⟩ => show win0_3.index _ (2 : Fin 3) * 1024 ≤ (i 2).val ∧ (i 2).val < win0_3.index _ (2 : Fin 3) * 1024 + 1024; rw [e2]; omega

/-- The result array after the kernel call. -/
theorem final (c : Dev nD) : (dats m 0 c).arrAt 3 cfg0.N = result m c :=
  (dats m 0 c).arrAt_eq_of_cover 3 (result m c) (flushed_eq m c) cover

/-- The operands of the call, from the program's arguments. -/
theorem tokens_eq (c : Dev nD) :
    tokens m c = shapeCast S8x4096x1024 (m ((c : Thread nD τ).loc main_arg0)) shapeCasts_S32768x1024_S8x4096x1024 := by
  show StableHlo.after hostOps0 (fun b => m (c, b)) (Proc.devRef .tc main_v1) = _
  after_results
  rfl
theorem up_eq (c : Dev nD) : up m c = m ((c : Thread nD τ).loc main_arg2) := by
  show StableHlo.after hostOps0 (fun b => m (c, b)) (Proc.devRef .tc main_v2) = _
  after_results
  rfl
theorem down_eq (c : Dev nD) : down m c = m ((c : Thread nD τ).loc main_arg3) := by
  show StableHlo.after hostOps0 (fun b => m (c, b)) (Proc.devRef .tc main_v3) = _
  after_results
  rfl

/-- The program's result: the call's result array with the expert axis flattened. -/
theorem tail_eq (c : Dev nD) :
    Pipeline.afterTail₀ cfgs (dats m) 0 (V0 m) [hostOps1] c main_v5
      = shapeCast S32768x1024 (result m c) shapeCasts_S8x4096x1024_S32768x1024 := by
  unfold Pipeline.afterTail₀
  show StableHlo.after hostOps1 _ (Proc.devRef .tc main_v5) = _
  after_results
  exact congrArg (fun X => shapeCast S32768x1024 X shapeCasts_S8x4096x1024_S32768x1024)
    ((Pipeline.withArrays_arr spec0 launch0.win.arr_inj c _ _ 3).trans (final m c))

/-- The run, read: the program's result at the flattened feed-forward map, its arguments as they were. -/
theorem run : θ_run defs (onTc (τ := τ) (main (F := Ideal))) ⟨m, fun _ => 0, ρ⟩ fun r => ∀ c : Dev nD,
      r.2.mem ((c.tc : Thread nD τ).loc main_v5) = shapeCast S32768x1024 (result m c) shapeCasts_S8x4096x1024_S32768x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.lean ====
/- A per-expert feed-forward layer: eight experts, each with 4096 tokens of 1024 coordinates, an up projection to 4096
   hidden places, the positive part, and a down projection back to 1024 coordinates. The kernel program walks an
   8 x 4 x 4 grid (expert, block of 1024 tokens, block of 1024 hidden places) and accumulates, over the four hidden
   blocks, the product of the positive part of the up projection's block with the down projection's block; the
   reference program computes the two batched products whole. Over the extended reals both are
     y(e, c, d) = Σ_f max(Σ_j x(e, c, j) · w1(e, j, f), 0) · w2(e, f, d):
   the kernel's sum over f is the same sum taken block by block (addition of extended reals is associative and
   commutative, so the grouping does not matter and no finiteness is used), a change of float format is the identity,
   and the same reshape brackets both programs. The ideal pass rewrote nothing, so the idealized kernel is the
   kernel's own text. -/
import proofs.«181821_j5566277615660_1_alg».proof.Defs
import proofs.«181821_j5566277615660_1_alg».proof.Proof.Gen.Kernel
import proofs.«181821_j5566277615660_1_alg».proof.Proof.Gen.Kernel.Skeleton
import proofs.«181821_j5566277615660_1_alg».proof.Proof.Gen.Kernel.Launch
import proofs.«181821_j5566277615660_1_alg».proof.Proof.Gen.Kernel.Points
import proofs.«181821_j5566277615660_1_alg».proof.Proof.Gen.Kernel.Frame
import proofs.«181821_j5566277615660_1_alg».proof.Proof.Gen.KernelIdeal
import proofs.«181821_j5566277615660_1_alg».proof.Proof.Gen.KernelIdeal.Skeleton
import proofs.«181821_j5566277615660_1_alg».proof.Proof.Gen.KernelIdeal.Launch
import proofs.«181821_j5566277615660_1_alg».proof.Proof.Gen.KernelIdeal.Points
import proofs.«181821_j5566277615660_1_alg».proof.Proof.Gen.KernelIdeal.Frame
import proofs.«181821_j5566277615660_1_alg».proof.Proof.Gen.ReferenceIdeal
import proofs.«181821_j5566277615660_1_alg».proof.Proof.Gen.ReferenceIdeal.Run
import proofs.«181821_j5566277615660_1_alg».proof.Proof.Gen.ReferenceIdeal.Read
import proofs.«181821_j5566277615660_1_alg».proof.Proof.Gen.Pre_finite_inputs
import proofs.«181821_j5566277615660_1_alg».proof.Proof.RefSide
import proofs.«181821_j5566277615660_1_alg».proof.Proof.Final
import Idealize.ShloMosaic.Adequacy
import Idealize.ShloMosaic.Init

noncomputable section

namespace Cert.Proof

open Idealize.ShloMosaic Idealize.ShloMosaic.TcCoe Idealize.SL.Sem

/-- The kernel program runs and leaves its arguments as they were, at the word level, -/
theorem frame_kernel : Cert.frame_Kernel := fun m ρ _ => Cert.Kernel.Gen.frame m ρ
/-- and at the extended reals; -/
theorem frame_kernelIdeal : Cert.frame_KernelIdeal := fun m ρ _ => Cert.KernelIdeal.Gen.frame m ρ
/-- so does the reference program: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- Both programs end at the flattened feed-forward map of the reshaped tokens and the two weight arrays. -/
theorem algebraic : Cert.algebraic_KernelIdeal_ReferenceIdeal := by
  intro m ρ m' ρ' _ hagree
  refine ⟨fun c => shapeCast Cert.KernelIdeal.S32768x1024 (Cert.KernelIdeal.Acc.result m c) Cert.KernelIdeal.Gen.shapeCasts_S8x4096x1024_S32768x1024,
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq]
  unfold Cert.ReferenceIdeal.Read.val_main_v4
  rw [Cert.ReferenceIdeal.RefValue.down_eq, (hagree c).1, (hagree c).2.2.1, (hagree c).2.2.2]
  beta_reduce
  unfold Cert.KernelIdeal.Acc.result
  rw [Cert.KernelIdeal.Final.tokens_eq, Cert.KernelIdeal.Final.up_eq, Cert.KernelIdeal.Final.down_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
